-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S200000x19 : Shape := ⟨2, ![200000, 19]⟩
abbrev S2x8000000 : Shape := ⟨2, ![2, 8000000]⟩
abbrev S8000000 : Shape := ⟨1, ![8000000]⟩
abbrev S20000 : Shape := ⟨1, ![20000]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S200000x19 : S_.BroadcastsInDim S200000x19 (![] : Fin 0 → Fin S200000x19.rank)
  reducesTo_S200000x19_S_d0_1 : S200000x19.ReducesTo [0, 1] S_
  bcast_S_S8000000 : S_.BroadcastsInDim S8000000 (![] : Fin 0 → Fin S8000000.rank)
  reducesTo_S8000000_S_d0 : S8000000.ReducesTo [0] S_

variable [Facts]

def fn {F : FTy → Type} [FloatOps F] (main_arg0 : FVec F S100000x5 .f32) (main_arg1 : FVec F S200000x19 .f32) (main_arg2 : IVec S2x8000000 32) (main_arg3 : FVec F S8000000 .f32) (main_arg4 : IVec S20000 32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S200000x19 .f32 := Host.absf main_arg1
  let main_cst_0 : FVec F S_ .f32 := constant S_ .f32 0x7F800000#32
  let main_v5 : FVec F S200000x19 .f32 := broadcastInDim S200000x19 ![] bcast_S_S200000x19 main_cst_0
  let main_v6 : IVec S200000x19 1 := cmpf .olt main_v4 main_v5
  let main_c_1 : IVec S_ 1 := constantI S_ 1 1#1
  let main_v7 : IVec S_ 1 := (fun x v => Host.reduce IntOp.andi x v reducesTo_S200000x19_S_d0_1 h_S_) main_v6 main_c_1
  let main_v8 : IVec S_ 1 := andi main_v3 main_v7
  let main_v9 : FVec F S8000000 .f32 := Host.absf main_arg3
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  main_v13
-- ==== Kernel.lean ====
abbrev S100000x5 : Shape := ⟨2, ![100000, 5]⟩
abbrev S200000x19 : Shape := ⟨2, ![200000, 19]⟩
abbrev S2x8000000 : Shape := ⟨2, ![2, 8000000]⟩
abbrev S8000000 : Shape := ⟨1, ![8000000]⟩
abbrev S20000 : Shape := ⟨1, ![20000]⟩
abbrev S1x8000000 : Shape := ⟨2, ![1, 8000000]⟩
abbrev S100000x1 : Shape := ⟨2, ![100000, 1]⟩
abbrev S100000 : Shape := ⟨1, ![100000]⟩
abbrev S200000x1 : Shape := ⟨2, ![200000, 1]⟩
abbrev S200000 : Shape := ⟨1, ![200000]⟩
abbrev S_ : Shape := ⟨0, ![]⟩
abbrev S8000000x1 : Shape := ⟨2, ![8000000, 1]⟩
abbrev S8000512 : Shape := ⟨1, ![8000512]⟩
abbrev S62504x128 : Shape := ⟨2, ![62504, 128]⟩
abbrev S4808x128 : Shape := ⟨2, ![4808, 128]⟩
abbrev S200704 : Shape := ⟨1, ![200704]⟩
abbrev S1568x128 : Shape := ⟨2, ![1568, 128]⟩
abbrev S20000x1 : Shape := ⟨2, ![20000, 1]⟩

abbrev nBuf : Space → Nat
  | .hbm => 78
  | .vmem => 12
  | .smem => 0
  | _ => 0

abbrev bufTy : (tb : Table) → Fin (tcTables nBuf tb) → BufTy
  | .hbm, ⟨0, _⟩ => ⟨S100000x5, .f32⟩
  | .hbm, ⟨1, _⟩ => ⟨S200000x19, .f32⟩
  | .hbm, ⟨2, _⟩ => ⟨S2x8000000, .i32⟩
  | .hbm, ⟨3, _⟩ => ⟨S8000000, .f32⟩
  | .hbm, ⟨4, _⟩ => ⟨S20000, .i32⟩
  | .hbm, ⟨5, _⟩ => ⟨S1x8000000, .i32⟩
  | .hbm, ⟨6, _⟩ => ⟨S8000000, .i32⟩
  | .hbm, ⟨7, _⟩ => ⟨S1x8000000, .i32⟩
  | .hbm, ⟨8, _⟩ => ⟨S8000000, .i32⟩
  | .hbm, ⟨9, _⟩ => ⟨S100000x1, .f32⟩
  | .hbm, ⟨10, _⟩ => ⟨S100000, .f32⟩
  | .hbm, ⟨11, _⟩ => ⟨S200000x1, .f32⟩
  | .hbm, ⟨12, _⟩ => ⟨S200000, .f32⟩
  | .hbm, ⟨13, _⟩ => ⟨S200000x1, .f32⟩
  | .hbm, ⟨14, _⟩ => ⟨S200000, .f32⟩
  | .hbm, ⟨15, _⟩ => ⟨S200000x1, .f32⟩
  | .hbm, ⟨16, _⟩ => ⟨S200000, .f32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000, .f32⟩
  | .hbm, ⟨26, _⟩ => ⟨S_, .i32⟩
  | .hbm, ⟨27, _⟩ => ⟨S8000000, .i32⟩
  | .hbm, ⟨28, _⟩ => ⟨S8000000, .i1⟩
  | .hbm, ⟨29, _⟩ => ⟨S_, .i32⟩
  | .hbm, ⟨30, _⟩ => ⟨S8000000, .i32⟩
  | .hbm, ⟨31, _⟩ => ⟨S8000000, .i32⟩
  | .hbm, ⟨32, _⟩ => ⟨S8000000, .i32⟩
  | .hbm, ⟨33, _⟩ => ⟨S8000000x1, .i32⟩
  | .hbm, ⟨34, _⟩ => ⟨S8000000, .f32⟩
  | .hbm, ⟨35, _⟩ => ⟨S_, .i32⟩
  | .hbm, ⟨36, _⟩ => ⟨S_, .f32⟩
  | .hbm, ⟨37, _⟩ => ⟨S8000512, .f32⟩
  | .hbm, ⟨38, _⟩ => ⟨S62504x128, .f32⟩
  | .hbm, ⟨39, _⟩ => ⟨S_, .i32⟩
  | .hbm, ⟨40, _⟩ => ⟨S_, .f32⟩
  | .hbm, ⟨41, _⟩ => ⟨S8000512, .f32⟩
  | .hbm, ⟨42, _⟩ => ⟨S62504x128, .f32⟩
  | .hbm, ⟨43, _⟩ => ⟨S_, .i32⟩
  | .hbm, ⟨44, _⟩ => ⟨S_, .f32⟩
  | .hbm, ⟨45, _⟩ => ⟨S8000512, .f32⟩
  | .hbm, ⟨46, _⟩ => ⟨S62504x128, .f32⟩
  | .hbm, ⟨47, _⟩ => ⟨S62504x128, .f32⟩
  | .hbm, ⟨48, _⟩ => ⟨S8000512, .f32⟩
  | .hbm, ⟨49, _⟩ => ⟨S8000000, .f32⟩
  | .hbm, ⟨50, _⟩ => ⟨S_, .f32⟩
  | .hbm, ⟨51, _⟩ => ⟨S200000, .f32⟩
  | .hbm, ⟨52, _⟩ => ⟨S8000000x1, .i32⟩
  | .hbm, ⟨53, _⟩ => ⟨S200000, .f32⟩
  | .hbm, ⟨54, _⟩ => ⟨S_, .i32⟩
  | .hbm, ⟨55, _⟩ => ⟨S_, .f32⟩
  | .hbm, ⟨56, _⟩ => ⟨S200704, .f32⟩
  | .hbm, ⟨57, _⟩ => ⟨S1568x128, .f32⟩
  | .hbm, ⟨58, _⟩ => ⟨S_, .i32⟩
  | .hbm, ⟨59, _⟩ => ⟨S_, .f32⟩
  | .hbm, ⟨60, _⟩ => ⟨S200704, .f32⟩
  | .hbm, ⟨61, _⟩ => ⟨S1568x128, .f32⟩
  | .hbm, ⟨62, _⟩ => ⟨S_, .i32⟩
  | .hbm, ⟨63, _⟩ => ⟨S_, .f32⟩
  | .hbm, ⟨64, _⟩ => ⟨S200704, .f32⟩
  | .hbm, ⟨65, _⟩ => ⟨S1568x128, .f32⟩
  | .hbm, ⟨66, _⟩ => ⟨S1568x128, .f32⟩
  | .hbm, ⟨67, _⟩ => ⟨S200704, .f32⟩
  | .hbm, ⟨68, _⟩ => ⟨S200000, .f32⟩
  | .hbm, ⟨69, _⟩ => ⟨S_, .i32⟩
  | .hbm, ⟨70, _⟩ => ⟨S20000, .i32⟩
  | .hbm, ⟨71, _⟩ => ⟨S20000, .i1⟩
  | .hbm, ⟨72, _⟩ => ⟨S_, .i32⟩
  | .hbm, ⟨73, _⟩ => ⟨S20000, .i32⟩
  | .hbm, ⟨74, _⟩ => ⟨S20000, .i32⟩
  | .hbm, ⟨75, _⟩ => ⟨S20000, .i32⟩
  | .hbm, ⟨76, _⟩ => ⟨S20000x1, .i32⟩
  | .hbm, ⟨77, _⟩ => ⟨S20000, .f32⟩
  | .local _ .vmem, ⟨0, _⟩ => ⟨S4808x128, .f32⟩
  | .local _ .vmem, ⟨1, _⟩ => ⟨S4808x128, .f32⟩
  | .local _ .vmem, ⟨2, _⟩ => ⟨S4808x128, .f32⟩
  | .local _ .vmem, ⟨3, _⟩ => ⟨S4808x128, .f32⟩
  | .local _ .vmem, ⟨4, _⟩ => ⟨S4808x128, .f32⟩
  | .local _ .vmem, ⟨5, _⟩ => ⟨S4808x128, .f32⟩
  | .local _ .vmem, ⟨6, _⟩ => ⟨S4808x128, .f32⟩
  | .local _ .vmem, ⟨7, _⟩ => ⟨S4808x128, .f32⟩
  | .local _ .vmem, ⟨8, _⟩ => ⟨S1568x128, .f32⟩
  | .local _ .vmem, ⟨9, _⟩ => ⟨S1568x128, .f32⟩
  | .local _ .vmem, ⟨10, _⟩ => ⟨S1568x128, .f32⟩
  | .local _ .vmem, ⟨11, _⟩ => ⟨S1568x128, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_call1_v0 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_call2_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call3_v0 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_call4_v0 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_call5_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4808x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4808x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4808x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4808x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1568x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1568x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1568x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1568x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  slices_S100000x5_S100000x1_0_2 : S100000x5.Slices ![0, 2] S100000x1
  shapeCasts_S100000x1_S100000 : S100000x1.ShapeCasts S100000
  slices_S200000x19_S200000x1_0_5 : S200000x19.Slices ![0, 5] S200000x1
  shapeCasts_S200000x1_S200000 : S200000x1.ShapeCasts S200000
  slices_S200000x19_S200000x1_0_0 : S200000x19.Slices ![0, 0] S200000x1
  slices_S200000x19_S200000x1_0_3 : S200000x19.Slices ![0, 3] S200000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  pads_S8000000_S8000512_05120 : S8000000.Pads (![0] : Fin 1 → Nat) ![512] ![0] S8000512
  h_S_ : 0 < S_.numel
  shapeCasts_S8000512_S62504x128 : S8000512.ShapeCasts S62504x128
  inb_S4808x128_S4808x128_0_0 : ∀ a, (![0, 0] : Fin 2 → Nat) a + S4808x128.size a ≤ S4808x128.size a
  h_S4808x128 : 0 < S4808x128.numel
  shapeCasts_S4808x128_S4808x128 : S4808x128.ShapeCasts S4808x128
  shapeCasts_S62504x128_S8000512 : S62504x128.ShapeCasts S8000512
  slices_S8000512_S8000000_0 : S8000512.Slices ![0] S8000000
  bcast_S_S200000 : S_.BroadcastsInDim S200000 (![] : Fin 0 → Fin S200000.rank)
  pads_S200000_S200704_07040 : S200000.Pads (![0] : Fin 1 → Nat) ![704] ![0] S200704
  shapeCasts_S200704_S1568x128 : S200704.ShapeCasts S1568x128
  inb_S1568x128_S1568x128_0_0 : ∀ a, (![0, 0] : Fin 2 → Nat) a + S1568x128.size a ≤ S1568x128.size a
  h_S1568x128 : 0 < S1568x128.numel
  shapeCasts_S1568x128_S1568x128 : S1568x128.ShapeCasts S1568x128
  shapeCasts_S1568x128_S200704 : S1568x128.ShapeCasts S200704
  slices_S200704_S200000_0 : S200704.Slices ![0] S200000
  bcast_S_S20000 : S_.BroadcastsInDim S20000 (![] : Fin 0 → Fin S20000.rank)
  bcast_S20000_S20000x1_0 : S20000.BroadcastsInDim S20000x1 (![0] : Fin 1 → Fin S20000x1.rank)
  gather_S200000_S8000000x1_S8000000_n_0_n_n_0_1_1_wf : GatherDims.WF S200000 S8000000x1 S8000000 [] [0] [] [0] [] 1 ![1]
  gather_S100000_S8000000x1_S8000000_n_0_n_n_0_1_1_wf : GatherDims.WF S100000 S8000000x1 S8000000 [] [0] [] [0] [] 1 ![1]
  scatter_S200000_S8000000x1_S8000000_n_0_0_1_wf : ScatterDims.WF S200000 S8000000x1 S8000000 [] [0] [0] 1
  gather_S200000_S20000x1_S20000_n_0_n_n_0_1_1_wf : GatherDims.WF S200000 S20000x1 S20000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4808x128.size a ≤ S62504x128.size a
  hwx0_0 : ∀ i : grid0.Coords, EltTy.bits .f32 = 32 ∨ (Rect.block (s := S62504x128) S4808x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4808x128.size a ≤ S62504x128.size a
  hwx0_1 : ∀ i : grid0.Coords, EltTy.bits .f32 = 32 ∨ (Rect.block (s := S62504x128) S4808x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4808x128.size a ≤ S62504x128.size a
  hwx0_2 : ∀ i : grid0.Coords, EltTy.bits .f32 = 32 ∨ (Rect.block (s := S62504x128) S4808x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4808x128.size a ≤ S62504x128.size a
  hwx0_3 : ∀ i : grid0.Coords, EltTy.bits .f32 = 32 ∨ (Rect.block (s := S62504x128) S4808x128.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1568x128.size a ≤ S1568x128.size a
  hwx1_0 : ∀ i : grid1.Coords, EltTy.bits .f32 = 32 ∨ (Rect.block (s := S1568x128) S1568x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1568x128.size a ≤ S1568x128.size a
  hwx1_1 : ∀ i : grid1.Coords, EltTy.bits .f32 = 32 ∨ (Rect.block (s := S1568x128) S1568x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1568x128.size a ≤ S1568x128.size a
  hwx1_2 : ∀ i : grid1.Coords, EltTy.bits .f32 = 32 ∨ (Rect.block (s := S1568x128) S1568x128.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1568x128.size a ≤ S1568x128.size a
  hwx1_3 : ∀ i : grid1.Coords, EltTy.bits .f32 = 32 ∨ (Rect.block (s := S1568x128) S1568x128.size (cc1_transform_3 i) (hinb1_3 i)).WholeWords (EltTy.packing .f32)

variable [Facts₀]

def gather_S200000_S8000000x1_S8000000_n_0_n_n_0_1_1 : GatherDims S200000 S8000000x1 S8000000 where
  offsetDims := []
  collapsedSliceDims := [0]
  operandBatchingDims := []
  startIndicesBatchingDims := []
  startIndexMap := [0]
  indexVectorDim := 1
  sliceSizes := ![1]
  wf := gather_S200000_S8000000x1_S8000000_n_0_n_n_0_1_1_wf
def gather_S100000_S8000000x1_S8000000_n_0_n_n_0_1_1 : GatherDims S100000 S8000000x1 S8000000 where
  offsetDims := []
  collapsedSliceDims := [0]
  operandBatchingDims := []
  startIndicesBatchingDims := []
  startIndexMap := [0]
  indexVectorDim := 1
  sliceSizes := ![1]
  wf := gather_S100000_S8000000x1_S8000000_n_0_n_n_0_1_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def gather_S200000_S20000x1_S20000_n_0_n_n_0_1_1 : GatherDims S200000 S20000x1 S20000 where
  offsetDims := []
  collapsedSliceDims := [0]
  operandBatchingDims := []
  startIndicesBatchingDims := []
  startIndexMap := [0]
  indexVectorDim := 1
  sliceSizes := ![1]
  wf := gather_S200000_S20000x1_S20000_n_0_n_n_0_1_1_wf

abbrev win0_0 : Pipeline.Window sig grid0 :=
  Pipeline.Window.ofSpec (Memref.whole main_v27) S4808x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4808x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4808x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4808x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S1568x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1568x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1568x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1568x128.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x5 : Shape := ⟨2, ![100000, 5]⟩
abbrev S200000x19 : Shape := ⟨2, ![200000, 19]⟩
abbrev S2x8000000 : Shape := ⟨2, ![2, 8000000]⟩
abbrev S8000000 : Shape := ⟨1, ![8000000]⟩
abbrev S20000 : Shape := ⟨1, ![20000]⟩
abbrev S1x8000000 : Shape := ⟨2, ![1, 8000000]⟩
abbrev S200000x1 : Shape := ⟨2, ![200000, 1]⟩
abbrev S200000 : Shape := ⟨1, ![200000]⟩
abbrev S_ : Shape := ⟨0, ![]⟩
abbrev S8000000x1 : Shape := ⟨2, ![8000000, 1]⟩
abbrev S100000x1 : Shape := ⟨2, ![100000, 1]⟩
abbrev S100000 : Shape := ⟨1, ![100000]⟩
abbrev S20000x1 : Shape := ⟨2, ![20000, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S200000x19, .f32⟩
  | .hbm, ⟨2, _⟩ => ⟨S2x8000000, .i32⟩
  | .hbm, ⟨3, _⟩ => ⟨S8000000, .f32⟩
  | .hbm, ⟨4, _⟩ => ⟨S20000, .i32⟩
  | .hbm, ⟨5, _⟩ => ⟨S1x8000000, .i32⟩
  | .hbm, ⟨6, _⟩ => ⟨S8000000, .i32⟩
  | .hbm, ⟨7, _⟩ => ⟨S1x8000000, .i32⟩
  | .hbm, ⟨8, _⟩ => ⟨S8000000, .i32⟩
  | .hbm, ⟨9, _⟩ => ⟨S200000x1, .f32⟩
  | .hbm, ⟨10, _⟩ => ⟨S200000, .f32⟩
  | .hbm, ⟨11, _⟩ => ⟨S_, .i32⟩
  | .hbm, ⟨12, _⟩ => ⟨S8000000, .i32⟩
  | .hbm, ⟨13, _⟩ => ⟨S8000000, .i1⟩
  | .hbm, ⟨14, _⟩ => ⟨S_, .i32⟩
  | .hbm, ⟨15, _⟩ => ⟨S8000000, .i32⟩
  | .hbm, ⟨16, _⟩ => ⟨S8000000, .i32⟩
  | .hbm, ⟨17, _⟩ => ⟨S8000000, .i32⟩
  | .hbm, ⟨18, _⟩ => ⟨S8000000x1, .i32⟩
  | .hbm, ⟨19, _⟩ => ⟨S8000000, .f32⟩
  | .hbm, ⟨20, _⟩ => ⟨S100000x1, .f32⟩
  | .hbm, ⟨21, _⟩ => ⟨S100000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S_, .f32⟩
  | .hbm, ⟨34, _⟩ => ⟨S200000, .f32⟩
  | .hbm, ⟨35, _⟩ => ⟨S8000000x1, .i32⟩
  | .hbm, ⟨36, _⟩ => ⟨S200000, .f32⟩
  | .hbm, ⟨37, _⟩ => ⟨S200000x1, .f32⟩
  | .hbm, ⟨38, _⟩ => ⟨S200000, .f32⟩
  | .hbm, ⟨39, _⟩ => ⟨S200000, .f32⟩
  | .hbm, ⟨40, _⟩ => ⟨S200000x1, .f32⟩
  | .hbm, ⟨41, _⟩ => ⟨S200000, .f32⟩
  | .hbm, ⟨42, _⟩ => ⟨S200000, .f32⟩
  | .hbm, ⟨43, _⟩ => ⟨S200000, .f32⟩
  | .hbm, ⟨44, _⟩ => ⟨S200000, .f32⟩
  | .hbm, ⟨45, _⟩ => ⟨S_, .i32⟩
  | .hbm, ⟨46, _⟩ => ⟨S20000, .i32⟩
  | .hbm, ⟨47, _⟩ => ⟨S20000, .i1⟩
  | .hbm, ⟨48, _⟩ => ⟨S_, .i32⟩
  | .hbm, ⟨49, _⟩ => ⟨S20000, .i32⟩
  | .hbm, ⟨50, _⟩ => ⟨S20000, .i32⟩
  | .hbm, ⟨51, _⟩ => ⟨S20000, .i32⟩
  | .hbm, ⟨52, _⟩ => ⟨S20000x1, .i32⟩
  | .hbm, ⟨53, _⟩ => ⟨S20000, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  slices_S200000x19_S200000x1_0_5 : S200000x19.Slices ![0, 5] S200000x1
  shapeCasts_S200000x1_S200000 : S200000x1.ShapeCasts S200000
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S100000x5_S100000x1_0_2 : S100000x5.Slices ![0, 2] S100000x1
  shapeCasts_S100000x1_S100000 : S100000x1.ShapeCasts S100000
  bcast_S_S200000 : S_.BroadcastsInDim S200000 (![] : Fin 0 → Fin S200000.rank)
  slices_S200000x19_S200000x1_0_0 : S200000x19.Slices ![0, 0] S200000x1
  slices_S200000x19_S200000x1_0_3 : S200000x19.Slices ![0, 3] S200000x1
  bcast_S_S20000 : S_.BroadcastsInDim S20000 (![] : Fin 0 → Fin S20000.rank)
  bcast_S20000_S20000x1_0 : S20000.BroadcastsInDim S20000x1 (![0] : Fin 1 → Fin S20000x1.rank)
  gather_S200000_S8000000x1_S8000000_n_0_n_n_0_1_1_wf : GatherDims.WF S200000 S8000000x1 S8000000 [] [0] [] [0] [] 1 ![1]
  gather_S100000_S8000000x1_S8000000_n_0_n_n_0_1_1_wf : GatherDims.WF S100000 S8000000x1 S8000000 [] [0] [] [0] [] 1 ![1]
  scatter_S200000_S8000000x1_S8000000_n_0_0_1_wf : ScatterDims.WF S200000 S8000000x1 S8000000 [] [0] [0] 1
  gather_S200000_S20000x1_S20000_n_0_n_n_0_1_1_wf : GatherDims.WF S200000 S20000x1 S20000 [] [0] [] [0] [] 1 ![1]

variable [Facts₀]

def gather_S200000_S8000000x1_S8000000_n_0_n_n_0_1_1 : GatherDims S200000 S8000000x1 S8000000 where
  offsetDims := []
  collapsedSliceDims := [0]
  operandBatchingDims := []
  startIndicesBatchingDims := []
  startIndexMap := [0]
  indexVectorDim := 1
  sliceSizes := ![1]
  wf := gather_S200000_S8000000x1_S8000000_n_0_n_n_0_1_1_wf
def gather_S100000_S8000000x1_S8000000_n_0_n_n_0_1_1 : GatherDims S100000 S8000000x1 S8000000 where
  offsetDims := []
  collapsedSliceDims := [0]
  operandBatchingDims := []
  startIndicesBatchingDims := []
  startIndexMap := [0]
  indexVectorDim := 1
  sliceSizes := ![1]
  wf := gather_S100000_S8000000x1_S8000000_n_0_n_n_0_1_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def gather_S200000_S20000x1_S20000_n_0_n_n_0_1_1 : GatherDims S200000 S20000x1 S20000 where
  offsetDims := []
  collapsedSliceDims := [0]
  operandBatchingDims := []
  startIndicesBatchingDims := []
  startIndexMap := [0]
  indexVectorDim := 1
  sliceSizes := ![1]
  wf := gather_S200000_S20000x1_S20000_n_0_n_n_0_1_1_wf

class Facts : Prop extends Facts₀ where

variable [Facts]
-- ==== Proof.EdgeRegion.lean ====
/-
  What pallas_call 0 leaves in its result array, as one function of the three arrays it reads.

  The first pallas_call works on three arrays of 62504 rows of 128 lanes in 13 blocks of 4808 rows: at every entry it stores
  `a · b + c` of the three operands' entries there. Its blocks tile the array, so the whole result array is that expression,
  entry by entry.
-/
import proofs.«103664_j78280073937529_1_alg».proof.Proof.Gen.KernelIdeal.Frame
import Idealize.ShloMosaic.Lib.Pipeline.Value

set_option maxRecDepth 16384

noncomputable section

namespace Cert.KernelIdeal.EdgeRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The result array's entry at `i`, from the three operand arrays' entries at `i`. -/
abbrev entrywise (a0 a1 a2 : S62504x128.Idx → Elt F .f32) : S62504x128.Idx → Elt F .f32 :=
  fun i => FloatOps.addf (FloatOps.mulf (a0 i) (a1 i)) (a2 i)

/-- The body's stored value is that expression of its three loaded blocks: the recasts to the block's own shape change nothing. -/
theorem stored_eq (x0 x1 x2 : Vec F S4808x128 .f32) : k0_pay1 x0 x1 x2 = addf (mulf x0 x1) x2 := by
  unfold k0_pay1
  simp only [shapeCast_self]

/-- The four windows move together: at every grid point each input block sits at the output block's index, and the
    output's block index runs over the rows' blocks. -/
theorem index_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 12
    ∧ win0_3.index t (1 : Fin 2) = 0 :=
  (by decide +kernel : ∀ t : Fin grid0.N, _)

/-- Every block of rows is some grid point's. -/
theorem index_onto : ∀ q : Fin 13, ∃ t : Fin cfg0.N, win0_3.index t = ![q.val, 0] :=
  (by decide +kernel : ∀ q : Fin 13, ∃ t : Fin grid0.N, win0_3.index t = ![q.val, 0])

/-- What grid point `t` writes back is block `t` of the entrywise expression of the three arrays as the region finds them. -/
theorem flushed_eq (c : Dev nD) (t : Fin cfg0.N) :
    (dat0 V c).flushed 3 t
      = ((cfg0.win 3).blk t).view.read (Elt F) (entrywise (V c main_v27) (V c main_v29) (V c main_v31)) := by
  show (cfg0.win 3).cut (grid0.coords t) ((dat0 V c).after 3 t) = _
  rw [after0_3]
  unfold out0_3
  rw [View.canon_unit_zero zero_off]
  simp only [View.ld_unit_zero (S := S4808x128) zero_off]
  rw [stored_eq]
  obtain ⟨e0, e1, e2, e3, e4, e5, -, -⟩ := index_facts t
  funext j
  show FloatOps.addf (FloatOps.mulf (V c main_v27 (((cfg0.win 0).blk t).view.emb j)) (V c main_v29 (((cfg0.win 1).blk t).view.emb j))) (V c main_v31 (((cfg0.win 2).blk t).view.emb j))
     = FloatOps.addf (FloatOps.mulf (V c main_v27 (((cfg0.win 3).blk t).view.emb j)) (V c main_v29 (((cfg0.win 3).blk t).view.emb j))) (V c main_v31 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 4808 + 1 * (j 0).val = win0_3.index t (0 : Fin 2) * 4808 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 4808 + 1 * (j 0).val = win0_3.index t (0 : Fin 2) * 4808 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 4808 + 1 * (j 0).val = win0_3.index t (0 : Fin 2) * 4808 + 1 * (j 0).val; omega
    | ⟨1, _⟩ => show win0_2.index t (1 : Fin 2) * 128 + 1 * (j 1).val = win0_3.index t (1 : Fin 2) * 128 + 1 * (j 1).val; omega
  rw [h0, h1, h2]

/-- An index of the result array lies in grid point `t`'s block iff each coordinate lies in the block's range. -/
theorem mem_block (t : Fin cfg0.N) (i : S62504x128.Idx) :
    i ∈ ((cfg0.win 3).blk t).view.set ↔ ∀ a : Fin 2, win0_3.index t a * S4808x128.size a ≤ (i a).val ∧ (i a).val < win0_3.index t a * S4808x128.size a + S4808x128.size a := by
  show i ∈ ((View.whole main_v32).slice (win0_3.rect t)).set ↔ _
  rw [View.set_slice_whole, Rect.mem_set_unit]
  exact Iff.rfl

/-- The blocks tile the array: row `r` lies in the block of index `r / 4808`. -/
theorem covered (i : S62504x128.Idx) :
    ∃ t : Fin cfg0.N, (cfg0.win 3).flush t = true ∧ i ∈ ((cfg0.win 3).blk t).view.set := by
  have hi0 : (i 0).val < 62504 := (i 0).isLt
  have hi1 : (i 1).val < 128 := (i 1).isLt
  obtain ⟨t, ht⟩ := index_onto ⟨(i 0).val / 4808, by omega⟩
  have q0 : win0_3.index t (0 : Fin 2) = (i 0).val / 4808 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4808 ≤ (i 0).val ∧ (i 0).val < win0_3.index t (0 : Fin 2) * 4808 + 4808; omega
  | ⟨1, _⟩ => show win0_3.index t (1 : Fin 2) * 128 ≤ (i 1).val ∧ (i 1).val < win0_3.index t (1 : Fin 2) * 128 + 128; omega

/-- The result array after the region: the entrywise expression of the three operand arrays as the region finds them. -/
theorem result_array (c : Dev nD) :
    (dat0 V c).arrAt 3 cfg0.N = entrywise (V c main_v27) (V c main_v29) (V c main_v31) :=
  (dat0 V c).arrAt_eq_of_cover 3 _ (fun t _ => flushed_eq V c t) (covered)

end Cert.KernelIdeal.EdgeRegion

end
-- ==== Proof.VarRegion.lean ====
/-
  What pallas_call 1 leaves in its result array, as one function of the three arrays it reads.

  The second pallas_call works on three arrays of 1568 rows of 128 lanes in ONE block: at every entry it stores
  `a · b + sqrt |c|` of the three operands' entries there, so the whole result array is that expression, entry by entry.
-/
import proofs.«103664_j78280073937529_1_alg».proof.Proof.Gen.KernelIdeal.Frame
import Idealize.ShloMosaic.Lib.Pipeline.Value

set_option maxRecDepth 16384

noncomputable section

namespace Cert.KernelIdeal.VarRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The result array's entry at `i`, from the three operand arrays' entries at `i`. -/
abbrev entrywise (a0 a1 a2 : S1568x128.Idx → Elt F .f32) : S1568x128.Idx → Elt F .f32 :=
  fun i => FloatOps.addf (FloatOps.mulf (a0 i) (a1 i)) (FloatOps.sqrt (FloatOps.absf (a2 i)))

/-- The body's stored value is that expression of its three loaded blocks: the recasts to the block's own shape change nothing. -/
theorem stored_eq (x0 x1 x2 : Vec F S1568x128 .f32) : k1_pay1 x0 x1 x2 = addf (mulf x0 x1) (sqrt (absf x2)) := by
  unfold k1_pay1
  simp only [shapeCast_self]

/-- The four windows move together: at every grid point each input block sits at the output block's index, and the
    output's block index runs over the rows' blocks. -/
theorem index_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) ≤ 0
    ∧ win1_3.index t (1 : Fin 2) = 0 :=
  (by decide +kernel : ∀ t : Fin grid1.N, _)

/-- Every block of rows is some grid point's. -/
theorem index_onto : ∀ q : Fin 1, ∃ t : Fin cfg1.N, win1_3.index t = ![q.val, 0] :=
  (by decide +kernel : ∀ q : Fin 1, ∃ t : Fin grid1.N, win1_3.index t = ![q.val, 0])

/-- What grid point `t` writes back is block `t` of the entrywise expression of the three arrays as the region finds them. -/
theorem flushed_eq (c : Dev nD) (t : Fin cfg1.N) :
    (dat1 V c).flushed 3 t
      = ((cfg1.win 3).blk t).view.read (Elt F) (entrywise (V c main_v39) (V c main_v41) (V c main_v43)) := by
  show (cfg1.win 3).cut (grid1.coords t) ((dat1 V c).after 3 t) = _
  rw [after1_3]
  unfold out1_3
  rw [View.canon_unit_zero zero_off]
  simp only [View.ld_unit_zero (S := S1568x128) zero_off]
  rw [stored_eq]
  obtain ⟨e0, e1, e2, e3, e4, e5, -, -⟩ := index_facts t
  funext j
  show FloatOps.addf (FloatOps.mulf (V c main_v39 (((cfg1.win 0).blk t).view.emb j)) (V c main_v41 (((cfg1.win 1).blk t).view.emb j))) (FloatOps.sqrt (FloatOps.absf (V c main_v43 (((cfg1.win 2).blk t).view.emb j))))
     = FloatOps.addf (FloatOps.mulf (V c main_v39 (((cfg1.win 3).blk t).view.emb j)) (V c main_v41 (((cfg1.win 3).blk t).view.emb j))) (FloatOps.sqrt (FloatOps.absf (V c main_v43 (((cfg1.win 3).blk t).view.emb j))))
  have h0 : ((cfg1.win 0).blk t).view.emb j = ((cfg1.win 3).blk t).view.emb j := by
    funext a; apply Fin.ext
    match a with
    | ⟨0, _⟩ => show win1_0.index t (0 : Fin 2) * 1568 + 1 * (j 0).val = win1_3.index t (0 : Fin 2) * 1568 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 1568 + 1 * (j 0).val = win1_3.index t (0 : Fin 2) * 1568 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 1568 + 1 * (j 0).val = win1_3.index t (0 : Fin 2) * 1568 + 1 * (j 0).val; omega
    | ⟨1, _⟩ => show win1_2.index t (1 : Fin 2) * 128 + 1 * (j 1).val = win1_3.index t (1 : Fin 2) * 128 + 1 * (j 1).val; omega
  rw [h0, h1, h2]

/-- An index of the result array lies in grid point `t`'s block iff each coordinate lies in the block's range. -/
theorem mem_block (t : Fin cfg1.N) (i : S1568x128.Idx) :
    i ∈ ((cfg1.win 3).blk t).view.set ↔ ∀ a : Fin 2, win1_3.index t a * S1568x128.size a ≤ (i a).val ∧ (i a).val < win1_3.index t a * S1568x128.size a + S1568x128.size a := by
  show i ∈ ((View.whole main_v44).slice (win1_3.rect t)).set ↔ _
  rw [View.set_slice_whole, Rect.mem_set_unit]
  exact Iff.rfl

/-- The blocks tile the array: row `r` lies in the block of index `r / 1568`. -/
theorem covered (i : S1568x128.Idx) :
    ∃ t : Fin cfg1.N, (cfg1.win 3).flush t = true ∧ i ∈ ((cfg1.win 3).blk t).view.set := by
  have hi0 : (i 0).val < 1568 := (i 0).isLt
  have hi1 : (i 1).val < 128 := (i 1).isLt
  obtain ⟨t, ht⟩ := index_onto ⟨(i 0).val / 1568, by omega⟩
  have q0 : win1_3.index t (0 : Fin 2) = (i 0).val / 1568 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 1568 ≤ (i 0).val ∧ (i 0).val < win1_3.index t (0 : Fin 2) * 1568 + 1568; omega
  | ⟨1, _⟩ => show win1_3.index t (1 : Fin 2) * 128 ≤ (i 1).val ∧ (i 1).val < win1_3.index t (1 : Fin 2) * 128 + 128; omega

/-- The result array after the region: the entrywise expression of the three operand arrays as the region finds them. -/
theorem result_array (c : Dev nD) :
    (dat1 V c).arrAt 3 cfg1.N = entrywise (V c main_v39) (V c main_v41) (V c main_v43) :=
  (dat1 V c).arrAt_eq_of_cover 3 _ (fun t _ => flushed_eq V c t) (covered)

end Cert.KernelIdeal.VarRegion

end
-- ==== Proof.LibPadLanes.lean ====
/-
  A flat vector laid out lane-dense and read back.

  A vector of `n` entries is padded at its end to `N` entries, recast as `R` rows of `L` lanes (`N = R * L`), worked on
  elementwise, recast flat and cut back to its first `n` entries. Each of the three layout steps answers its operand at a
  mapped index, so an elementwise operation commutes with all of them, and the three together, with nothing in between,
  are the identity: entry `j < n` of the cut reads flat position `j` of the padded vector, which lies inside the
  operand, whatever the padding value is.
-/
import Idealize.ShloMosaic.PureOps
import Idealize.ShloMosaic.Lib.Pipeline.Value
import Idealize.ShloMosaic.Lib.KernelVsHost
import Idealize.ShloMosaic.Lib.ValueIdx

namespace Idealize.ShloMosaic.PadLanes

open Idealize.ShloMosaic Idealize.ShloMosaic.ValueIdx

variable {F : FTy → Type} [FloatOps F] {φ : FTy} {α : Type} {s t : Shape}

/-! ## Elementwise operations through a recast and a cut -/

/-- A recast of a sum is the sum of the recasts. -/
theorem shapeCast_addf (a b : FVec F s φ) (h : s.ShapeCasts t) :
    shapeCast t (addf a b) h = addf (shapeCast t a h) (shapeCast t b h) := rfl
/-- A recast of a product is the product of the recasts. -/
theorem shapeCast_mulf (a b : FVec F s φ) (h : s.ShapeCasts t) :
    shapeCast t (mulf a b) h = mulf (shapeCast t a h) (shapeCast t b h) := rfl
/-- A recast of an absolute value is the absolute value of the recast. -/
theorem shapeCast_absf (a : FVec F s φ) (h : s.ShapeCasts t) :
    shapeCast t (absf a) h = absf (shapeCast t a h) := rfl
/-- A recast of a square root is the square root of the recast. -/
theorem shapeCast_sqrt (a : FVec F s φ) (h : s.ShapeCasts t) :
    shapeCast t (sqrt a) h = sqrt (shapeCast t a h) := rfl
/-- A cut of an absolute value is the absolute value of the cut. -/
theorem extractStridedSlice_absf (off : Fin s.rank → Nat) (a : FVec F s φ) (h : s.Slices off t) :
    extractStridedSlice t off (absf a) h = absf (extractStridedSlice t off a h) := rfl
/-- A cut of a square root is the square root of the cut. -/
theorem extractStridedSlice_sqrt (off : Fin s.rank → Nat) (a : FVec F s φ) (h : s.Slices off t) :
    extractStridedSlice t off (sqrt a) h = sqrt (extractStridedSlice t off a h) := rfl

/-! ## Pad, recast, recast back, cut: the identity -/

/-- The first `n` entries of a vector of `n` entries padded at its end are the vector. -/
theorem slice_pad_end {n p N : Nat} (x : (⟨1, ![n]⟩ : Shape).Idx → α) {u : Shape} (v : u.Idx → α)
    (hp : (⟨1, ![n]⟩ : Shape).Pads (![0] : Fin 1 → Nat) ![p] ![0] ⟨1, ![N]⟩) (hu : 0 < u.numel)
    (hsl : (⟨1, ![N]⟩ : Shape).Slices ![0] ⟨1, ![n]⟩) :
    extractStridedSlice ⟨1, ![n]⟩ ![0] (pad ⟨1, ![N]⟩ ![0] ![p] ![0] x v hp hu) hsl = x := by
  funext j
  have hm : (j 0).val < N := by
    have e : (0 : Nat) + n ≤ N := hsl.2 (0 : Fin 1)
    have hj : (j 0).val < n := (j 0).isLt
    omega
  refine (extractStridedSlice_apply _ _ hsl j (ix1 (⟨(j 0).val, hm⟩ : Fin N)) (by
    intro a
    have ha : a = 0 := Subsingleton.elim _ _
    subst ha
    show (j 0).val = 0 + (j 0).val; omega)).trans ?_
  exact pad_apply_of_inside _ _ _ x v hp hu _ j (by
    intro a
    have ha : a = 0 := Subsingleton.elim _ _
    subst ha
    show (j 0).val = 0 + (j 0).val * (0 + 1); omega)

/-- Padded at its end, recast as rows of lanes, recast flat and cut back to its length, a vector is itself. -/
theorem slice_flat_lanes_pad {n p N R L : Nat} (x : (⟨1, ![n]⟩ : Shape).Idx → α) {u : Shape} (v : u.Idx → α)
    (hp : (⟨1, ![n]⟩ : Shape).Pads (![0] : Fin 1 → Nat) ![p] ![0] ⟨1, ![N]⟩) (hu : 0 < u.numel)
    (h1 : (⟨1, ![N]⟩ : Shape).ShapeCasts ⟨2, ![R, L]⟩) (h2 : (⟨2, ![R, L]⟩ : Shape).ShapeCasts ⟨1, ![N]⟩)
    (hsl : (⟨1, ![N]⟩ : Shape).Slices ![0] ⟨1, ![n]⟩) :
    extractStridedSlice ⟨1, ![n]⟩ ![0]
        (shapeCast ⟨1, ![N]⟩ (shapeCast ⟨2, ![R, L]⟩ (pad ⟨1, ![N]⟩ ![0] ![p] ![0] x v hp hu) h1) h2) hsl = x := by
  rw [shapeCast_shapeCast]
  exact slice_pad_end x v hp hu hsl

/-- AN ENTRYWISE MAP OF THREE VECTORS COMPUTED LANE-DENSE: each of three vectors of `n` entries is padded at its end and
    recast as rows of lanes, a function `g` is applied entry by entry to the three, and the result is recast flat and cut
    back to `n` entries. That is `g` applied entry by entry to the three vectors themselves: the padding is never read. -/
theorem slice_flat_map3_lanes_pad {n p N R L : Nat} (g : α → α → α → α)
    (x y z : (⟨1, ![n]⟩ : Shape).Idx → α) {u : Shape} (vx vy vz : u.Idx → α)
    (hp : (⟨1, ![n]⟩ : Shape).Pads (![0] : Fin 1 → Nat) ![p] ![0] ⟨1, ![N]⟩) (hu : 0 < u.numel)
    (h1 : (⟨1, ![N]⟩ : Shape).ShapeCasts ⟨2, ![R, L]⟩) (h2 : (⟨2, ![R, L]⟩ : Shape).ShapeCasts ⟨1, ![N]⟩)
    (hsl : (⟨1, ![N]⟩ : Shape).Slices ![0] ⟨1, ![n]⟩) :
    extractStridedSlice ⟨1, ![n]⟩ ![0]
        (shapeCast ⟨1, ![N]⟩
          (fun i => g (shapeCast ⟨2, ![R, L]⟩ (pad ⟨1, ![N]⟩ ![0] ![p] ![0] x vx hp hu) h1 i)
            (shapeCast ⟨2, ![R, L]⟩ (pad ⟨1, ![N]⟩ ![0] ![p] ![0] y vy hp hu) h1 i)
            (shapeCast ⟨2, ![R, L]⟩ (pad ⟨1, ![N]⟩ ![0] ![p] ![0] z vz hp hu) h1 i)) h2) hsl
      = fun j => g (x j) (y j) (z j) := by
  funext j
  have hx := congrFun (slice_flat_lanes_pad x vx hp hu h1 h2 hsl) j
  have hy := congrFun (slice_flat_lanes_pad y vy hp hu h1 h2 hsl) j
  have hz := congrFun (slice_flat_lanes_pad z vz hp hu h1 h2 hsl) j
  exact congr (congr (congrArg g hx) hy) hz

end Idealize.ShloMosaic.PadLanes
-- ==== Proof.ResultValue.lean ====
/-
  What the kernel's program leaves in its result buffer, as one expression of its five argument arrays.

  @main gathers a column of the variables and a column of the constraints to the edges, lays the three per-edge vectors out
  lane-dense (padded at the end, recast as rows of 128 lanes), runs the first pallas_call (`a · b + c` entry by entry), lays
  the result flat again and cuts the padding off; scatter-adds that per-edge message into the variables; lays the sum and two
  columns of the variables out lane-dense, runs the second pallas_call (`a · b + sqrt |c|` entry by entry), lays flat, cuts,
  and gathers the candidates' entries. The layout steps read their operand at a mapped index and the padding is never read
  back, so the result is the same expression with the two pallas_calls replaced by the entrywise maps on the unpadded vectors.
-/
import proofs.«103664_j78280073937529_1_alg».proof.Proof.Gen.KernelIdeal.Frame
import proofs.«103664_j78280073937529_1_alg».proof.Proof.EdgeRegion
import proofs.«103664_j78280073937529_1_alg».proof.Proof.VarRegion
import proofs.«103664_j78280073937529_1_alg».proof.Proof.LibPadLanes
import Idealize.ShloMosaic.Lib.StableHlo.Run

set_option maxRecDepth 16384

noncomputable section

namespace Cert.KernelIdeal.Result

open Cert.KernelIdeal Cert.KernelIdeal.Facts₀
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The expression, piece by piece -/

/-- The edges' variable indices: row 1 of the edge-index array. -/
def varIdx (c : Dev nD) : (⟨S8000000, .i32⟩ : BufTy).Contents (Elt F) :=
  shapeCast S8000000 (extractStridedSlice S1x8000000 ![1, 0] (m ((c : Thread nD τ).loc main_arg2)) slices_S2x8000000_S1x8000000_1_0) shapeCasts_S1x8000000_S8000000
/-- The edges' constraint indices: row 0 of the edge-index array. -/
def conIdx (c : Dev nD) : (⟨S8000000, .i32⟩ : BufTy).Contents (Elt F) :=
  shapeCast S8000000 (extractStridedSlice S1x8000000 ![0, 0] (m ((c : Thread nD τ).loc main_arg2)) slices_S2x8000000_S1x8000000_0_0) shapeCasts_S1x8000000_S8000000
/-- Column 2 of the constraints. -/
def conCol2 (c : Dev nD) : (⟨S100000, .f32⟩ : BufTy).Contents (Elt F) :=
  shapeCast S100000 (extractStridedSlice S100000x1 ![0, 2] (m ((c : Thread nD τ).loc main_arg0)) slices_S100000x5_S100000x1_0_2) shapeCasts_S100000x1_S100000
/-- Column 5 of the variables. -/
def varCol5 (c : Dev nD) : (⟨S200000, .f32⟩ : BufTy).Contents (Elt F) :=
  shapeCast S200000 (extractStridedSlice S200000x1 ![0, 5] (m ((c : Thread nD τ).loc main_arg1)) slices_S200000x19_S200000x1_0_5) shapeCasts_S200000x1_S200000
/-- Column 0 of the variables. -/
def varCol0 (c : Dev nD) : (⟨S200000, .f32⟩ : BufTy).Contents (Elt F) :=
  shapeCast S200000 (extractStridedSlice S200000x1 ![0, 0] (m ((c : Thread nD τ).loc main_arg1)) slices_S200000x19_S200000x1_0_0) shapeCasts_S200000x1_S200000
/-- Column 3 of the variables. -/
def varCol3 (c : Dev nD) : (⟨S200000, .f32⟩ : BufTy).Contents (Elt F) :=
  shapeCast S200000 (extractStridedSlice S200000x1 ![0, 3] (m ((c : Thread nD τ).loc main_arg1)) slices_S200000x19_S200000x1_0_3) shapeCasts_S200000x1_S200000
/-- Column 5 of the variables gathered to the edges (a negative index counted from the end, as jnp indexing does). -/
def varAtEdges (c : Dev nD) : (⟨S8000000, .f32⟩ : BufTy).Contents (Elt F) :=
  Host.gather gather_S200000_S8000000x1_S8000000_n_0_n_n_0_1_1 (varCol5 m c)
    (broadcastInDim S8000000x1 ![0] bcast_S8000000_S8000000x1_0
      (select (cmpi .slt (varIdx m c) (broadcastInDim S8000000 ![] bcast_S_S8000000 (constantI S_ 32 0#32)))
        (addi (varIdx m c) (broadcastInDim S8000000 ![] bcast_S_S8000000 (constantI S_ 32 200000#32))) (varIdx m c)))
/-- Column 2 of the constraints gathered to the edges. -/
def conAtEdges (c : Dev nD) : (⟨S8000000, .f32⟩ : BufTy).Contents (Elt F) :=
  Host.gather gather_S100000_S8000000x1_S8000000_n_0_n_n_0_1_1 (conCol2 m c)
    (broadcastInDim S8000000x1 ![0] bcast_S8000000_S8000000x1_0
      (select (cmpi .slt (conIdx m c) (broadcastInDim S8000000 ![] bcast_S_S8000000 (constantI S_ 32 0#32)))
        (addi (conIdx m c) (broadcastInDim S8000000 ![] bcast_S_S8000000 (constantI S_ 32 100000#32))) (conIdx m c)))

/-- A per-edge vector laid out lane-dense: padded at its end to 8000512 entries, as 62504 rows of 128 lanes. -/
def edgeLanes (x : (⟨S8000000, .f32⟩ : BufTy).Contents (Elt F)) : (⟨S62504x128, .f32⟩ : BufTy).Contents (Elt F) :=
  shapeCast S62504x128 (pad S8000512 ![0] ![512] ![0] x (sitofp .f32 (constantI S_ 32 0#32) : (⟨S_, .f32⟩ : BufTy).Contents (Elt F)) pads_S8000000_S8000512_05120 h_S_) shapeCasts_S8000512_S62504x128
/-- A per-variable vector laid out lane-dense: padded at its end to 200704 entries, as 1568 rows of 128 lanes. -/
def varLanes (x : (⟨S200000, .f32⟩ : BufTy).Contents (Elt F)) : (⟨S1568x128, .f32⟩ : BufTy).Contents (Elt F) :=
  shapeCast S1568x128 (pad S200704 ![0] ![704] ![0] x (sitofp .f32 (constantI S_ 32 0#32) : (⟨S_, .f32⟩ : BufTy).Contents (Elt F)) pads_S200000_S200704_07040 h_S_) shapeCasts_S200704_S1568x128

/-- The per-edge message: the gathered variable column times the edge weight plus the gathered constraint column. -/
def edgeMsg (c : Dev nD) : (⟨S8000000, .f32⟩ : BufTy).Contents (Elt F) :=
  addf (mulf (varAtEdges m c) (m ((c : Thread nD τ).loc main_arg3))) (conAtEdges m c)
/-- The messages summed into their variables (a scatter-add into zeros at the edges' variable indices). -/
def aggregate (c : Dev nD) : (⟨S200000, .f32⟩ : BufTy).Contents (Elt F) :=
  Host.scatterAdd scatter_S200000_S8000000x1_S8000000_n_0_0_1 (broadcastInDim S200000 ![] bcast_S_S200000 (constant S_ .f32 0x00000000#32))
    (broadcastInDim S8000000x1 ![0] bcast_S8000000_S8000000x1_0 (varIdx m c)) (edgeMsg m c)
/-- Per variable: the sum times column 0 plus the square root of the absolute value of column 3. -/
def perVariable (c : Dev nD) : (⟨S200000, .f32⟩ : BufTy).Contents (Elt F) :=
  addf (mulf (aggregate m c) (varCol0 m c)) (sqrt (absf (varCol3 m c)))
/-- The candidates' entries of it. -/
def picked (c : Dev nD) : (⟨S20000, .f32⟩ : BufTy).Contents (Elt F) :=
  Host.gather gather_S200000_S20000x1_S20000_n_0_n_n_0_1_1 (perVariable m c)
    (broadcastInDim S20000x1 ![0] bcast_S20000_S20000x1_0
      (select (cmpi .slt (m ((c : Thread nD τ).loc main_arg4)) (broadcastInDim S20000 ![] bcast_S_S20000 (constantI S_ 32 0#32)))
        (addi (m ((c : Thread nD τ).loc main_arg4)) (broadcastInDim S20000 ![] bcast_S_S20000 (constantI S_ 32 200000#32)))
        (m ((c : Thread nD τ).loc main_arg4))))

/-! ## Lane-dense and back -/

/-- The first pallas_call's entrywise map on three lane-dense per-edge vectors, laid flat and cut, is the map on the vectors. -/
theorem edge_roundtrip (a b d : (⟨S8000000, .f32⟩ : BufTy).Contents (Elt F)) :
    extractStridedSlice S8000000 ![0]
        (shapeCast S8000512 (EdgeRegion.entrywise (edgeLanes a) (edgeLanes b) (edgeLanes d)) shapeCasts_S62504x128_S8000512)
        slices_S8000512_S8000000_0
      = addf (mulf a b) d :=
  PadLanes.slice_flat_map3_lanes_pad (fun x y z => FloatOps.addf (FloatOps.mulf x y) z) a b d _ _ _
    pads_S8000000_S8000512_05120 h_S_ shapeCasts_S8000512_S62504x128 shapeCasts_S62504x128_S8000512 slices_S8000512_S8000000_0

/-- The second pallas_call's entrywise map on three lane-dense per-variable vectors, laid flat and cut, is the map on the vectors. -/
theorem var_roundtrip (a b d : (⟨S200000, .f32⟩ : BufTy).Contents (Elt F)) :
    extractStridedSlice S200000 ![0]
        (shapeCast S200704 (VarRegion.entrywise (varLanes a) (varLanes b) (varLanes d)) shapeCasts_S1568x128_S200704)
        slices_S200704_S200000_0
      = addf (mulf a b) (sqrt (absf d)) :=
  PadLanes.slice_flat_map3_lanes_pad (fun x y z => FloatOps.addf (FloatOps.mulf x y) (FloatOps.sqrt (FloatOps.absf z))) a b d _ _ _
    pads_S200000_S200704_07040 h_S_ shapeCasts_S200704_S1568x128 shapeCasts_S1568x128_S200704 slices_S200704_S200000_0

/-! ## The host stretch before the first pallas_call -/

/-- The first pallas_call's operand 0: the gathered variable column, lane-dense. -/
theorem entry0_a (c : Dev nD) : Gen.W7 m ρ c (Proc.devRef .tc main_v27) = edgeLanes (varAtEdges m c) := by
  unfold edgeLanes varAtEdges varCol5 varIdx
  dsimp only [Gen.W7, Gen.W6, Gen.W5, Gen.W4, Gen.W3, Gen.W2, Gen.W1, Gen.hostOps0_6, Gen.hostOps0_5, Gen.hostOps0_4, Gen.hostOps0_3, Gen.hostOps0_2, Gen.hostOps0_1, Gen.hostOps0]
  after_results_simp <;> rfl
/-- Its operand 1: the edge weights, lane-dense. -/
theorem entry0_b (c : Dev nD) : Gen.W7 m ρ c (Proc.devRef .tc main_v29) = edgeLanes (m ((c : Thread nD τ).loc main_arg3)) := by
  unfold edgeLanes
  dsimp only [Gen.W7, Gen.W6, Gen.W5, Gen.W4, Gen.W3, Gen.W2, Gen.W1, Gen.hostOps0_6, Gen.hostOps0_5, Gen.hostOps0_4, Gen.hostOps0_3, Gen.hostOps0_2, Gen.hostOps0_1, Gen.hostOps0]
  after_results_simp <;> rfl
/-- Its operand 2: the gathered constraint column, lane-dense. -/
theorem entry0_c (c : Dev nD) : Gen.W7 m ρ c (Proc.devRef .tc main_v31) = edgeLanes (conAtEdges m c) := by
  unfold edgeLanes conAtEdges conCol2 conIdx
  dsimp only [Gen.W7, Gen.W6, Gen.W5, Gen.W4, Gen.W3, Gen.W2, Gen.W1, Gen.hostOps0_6, Gen.hostOps0_5, Gen.hostOps0_4, Gen.hostOps0_3, Gen.hostOps0_2, Gen.hostOps0_1, Gen.hostOps0]
  after_results_simp <;> rfl
/-- The edges' variable indices, computed before it. -/
theorem entry0_idx (c : Dev nD) : Gen.W7 m ρ c (Proc.devRef .tc main_v3) = varIdx m c := by
  unfold varIdx
  dsimp only [Gen.W7, Gen.W6, Gen.W5, Gen.W4, Gen.W3, Gen.W2, Gen.W1, Gen.hostOps0_6, Gen.hostOps0_5, Gen.hostOps0_4, Gen.hostOps0_3, Gen.hostOps0_2, Gen.hostOps0_1, Gen.hostOps0]
  after_results_simp <;> rfl
/-- Column 0 of the variables, computed before it. -/
theorem entry0_col0 (c : Dev nD) : Gen.W7 m ρ c (Proc.devRef .tc main_v9) = varCol0 m c := by
  unfold varCol0
  dsimp only [Gen.W7, Gen.W6, Gen.W5, Gen.W4, Gen.W3, Gen.W2, Gen.W1, Gen.hostOps0_6, Gen.hostOps0_5, Gen.hostOps0_4, Gen.hostOps0_3, Gen.hostOps0_2, Gen.hostOps0_1, Gen.hostOps0]
  after_results_simp <;> rfl
/-- Column 3 of the variables, computed before it. -/
theorem entry0_col3 (c : Dev nD) : Gen.W7 m ρ c (Proc.devRef .tc main_v11) = varCol3 m c := by
  unfold varCol3
  dsimp only [Gen.W7, Gen.W6, Gen.W5, Gen.W4, Gen.W3, Gen.W2, Gen.W1, Gen.hostOps0_6, Gen.hostOps0_5, Gen.hostOps0_4, Gen.hostOps0_3, Gen.hostOps0_2, Gen.hostOps0_1, Gen.hostOps0]
  after_results_simp <;> rfl

/-! ## After the first pallas_call -/

/-- Its result array: the entrywise map of its three lane-dense operands. -/
theorem exit0_out (c : Dev nD) : Gen.W8 m ρ c (Proc.devRef .tc main_v32)
    = EdgeRegion.entrywise (edgeLanes (varAtEdges m c)) (edgeLanes (m ((c : Thread nD τ).loc main_arg3))) (edgeLanes (conAtEdges m c)) := by
  refine (Gen.W8_arr m ρ c 3).trans ((EdgeRegion.result_array (Gen.V7 m ρ) c).trans ?_)
  show EdgeRegion.entrywise (Gen.W7 m ρ c (Proc.devRef .tc main_v27)) (Gen.W7 m ρ c (Proc.devRef .tc main_v29)) (Gen.W7 m ρ c (Proc.devRef .tc main_v31)) = _
  rw [entry0_a, entry0_b, entry0_c]
/-- The other buffers are as before it. -/
theorem exit0_idx (c : Dev nD) : Gen.W8 m ρ c (Proc.devRef .tc main_v3) = varIdx m c :=
  (Gen.W8_of_ne m ρ c main_v3 (by decide)).trans (entry0_idx m ρ c)
theorem exit0_col0 (c : Dev nD) : Gen.W8 m ρ c (Proc.devRef .tc main_v9) = varCol0 m c :=
  (Gen.W8_of_ne m ρ c main_v9 (by decide)).trans (entry0_col0 m ρ c)
theorem exit0_col3 (c : Dev nD) : Gen.W8 m ρ c (Proc.devRef .tc main_v11) = varCol3 m c :=
  (Gen.W8_of_ne m ρ c main_v11 (by decide)).trans (entry0_col3 m ρ c)

/-! ## The host stretch between the two pallas_calls -/

/-- The second pallas_call's operand 0: the scatter-added sum of the first one's result, laid flat and cut, lane-dense. -/
theorem entry1_a (c : Dev nD) : Gen.W15 m ρ c (Proc.devRef .tc main_v39)
    = varLanes (Host.scatterAdd scatter_S200000_S8000000x1_S8000000_n_0_0_1 (broadcastInDim S200000 ![] bcast_S_S200000 (constant S_ .f32 0x00000000#32))
        (broadcastInDim S8000000x1 ![0] bcast_S8000000_S8000000x1_0 (Gen.W8 m ρ c (Proc.devRef .tc main_v3)))
        (extractStridedSlice S8000000 ![0] (shapeCast S8000512 (Gen.W8 m ρ c (Proc.devRef .tc main_v32)) shapeCasts_S62504x128_S8000512) slices_S8000512_S8000000_0)) := by
  unfold varLanes
  dsimp only [Gen.W15, Gen.W14, Gen.W13, Gen.W12, Gen.W11, Gen.W10, Gen.W9, Gen.hostOps1_6, Gen.hostOps1_5, Gen.hostOps1_4, Gen.hostOps1_3, Gen.hostOps1_2, Gen.hostOps1_1, Gen.hostOps1]
  after_results_simp <;> rfl
/-- Its operand 1: column 0 of the variables, lane-dense. -/
theorem entry1_b (c : Dev nD) : Gen.W15 m ρ c (Proc.devRef .tc main_v41) = varLanes (Gen.W8 m ρ c (Proc.devRef .tc main_v9)) := by
  unfold varLanes
  dsimp only [Gen.W15, Gen.W14, Gen.W13, Gen.W12, Gen.W11, Gen.W10, Gen.W9, Gen.hostOps1_6, Gen.hostOps1_5, Gen.hostOps1_4, Gen.hostOps1_3, Gen.hostOps1_2, Gen.hostOps1_1, Gen.hostOps1]
  after_results_simp <;> rfl
/-- Its operand 2: column 3 of the variables, lane-dense. -/
theorem entry1_c (c : Dev nD) : Gen.W15 m ρ c (Proc.devRef .tc main_v43) = varLanes (Gen.W8 m ρ c (Proc.devRef .tc main_v11)) := by
  unfold varLanes
  dsimp only [Gen.W15, Gen.W14, Gen.W13, Gen.W12, Gen.W11, Gen.W10, Gen.W9, Gen.hostOps1_6, Gen.hostOps1_5, Gen.hostOps1_4, Gen.hostOps1_3, Gen.hostOps1_2, Gen.hostOps1_1, Gen.hostOps1]
  after_results_simp <;> rfl

/-! ## After the second pallas_call -/

/-- Its result array: the entrywise map of its three operands as it finds them. -/
theorem exit1_out (c : Dev nD) : Gen.W16 m ρ c (Proc.devRef .tc main_v44)
    = VarRegion.entrywise (Gen.W15 m ρ c (Proc.devRef .tc main_v39)) (Gen.W15 m ρ c (Proc.devRef .tc main_v41)) (Gen.W15 m ρ c (Proc.devRef .tc main_v43)) :=
  (Gen.W16_arr m ρ c 3).trans (VarRegion.result_array (Gen.V15 m ρ) c)
/-- The candidate indices are the argument's: no host operation after it writes them, and they end as launched. -/
theorem exit1_cand (c : Dev nD) : Gen.W16 m ρ c (Proc.devRef .tc main_arg4) = m ((c : Thread nD τ).loc main_arg4) :=
  (show Gen.W17 m ρ c (Proc.devRef .tc main_arg4) = Gen.W16 m ρ c (Proc.devRef .tc main_arg4) by
    dsimp only [Gen.W17, Gen.hostOps2]
    after_results_simp).symm.trans (Gen.W17_main_arg4 m ρ c)

/-! ## The last host stretch, and the whole -/

/-- The result buffer: the candidates' entries of the second pallas_call's result, laid flat and cut. -/
theorem final_read (c : Dev nD) : Gen.W17 m ρ c (Proc.devRef .tc main_v53)
    = Host.gather gather_S200000_S20000x1_S20000_n_0_n_n_0_1_1
        (extractStridedSlice S200000 ![0] (shapeCast S200704 (Gen.W16 m ρ c (Proc.devRef .tc main_v44)) shapeCasts_S1568x128_S200704) slices_S200704_S200000_0)
        (broadcastInDim S20000x1 ![0] bcast_S20000_S20000x1_0
          (select (cmpi .slt (Gen.W16 m ρ c (Proc.devRef .tc main_arg4)) (broadcastInDim S20000 ![] bcast_S_S20000 (constantI S_ 32 0#32)))
            (addi (Gen.W16 m ρ c (Proc.devRef .tc main_arg4)) (broadcastInDim S20000 ![] bcast_S_S20000 (constantI S_ 32 200000#32)))
            (Gen.W16 m ρ c (Proc.devRef .tc main_arg4)))) := by
  dsimp only [Gen.W17, Gen.hostOps2]
  after_results_simp <;> rfl

/-- THE RESULT BUFFER after the run is the candidates' entries of `agg · col0 + sqrt |col3|`, `agg` the scatter-added
    per-edge messages `var5[vidx] · weight + con2[cidx]`. -/
theorem result_eq (c : Dev nD) : Gen.W17 m ρ c (Proc.devRef .tc main_v53) = picked m c := by
  rw [final_read, exit1_cand, exit1_out, entry1_a, entry1_b, entry1_c, exit0_idx, exit0_col0, exit0_col3, exit0_out,
    edge_roundtrip, var_roundtrip]
  rfl

end Cert.KernelIdeal.Result

end
-- ==== Proof.lean ====
/-
  The kernel's program and the reference compute one expression of the five argument arrays.

  Both gather column 5 of the variables and column 2 of the constraints to the edges, form the per-edge message
  `var5[vidx] · weight + con2[cidx]`, scatter-add it into the variables, form `agg · var0 + sqrt |var3|` per variable and
  gather the candidates' entries. The kernel's program computes the two entrywise steps in pallas_calls on lane-dense,
  end-padded copies of the vectors and cuts the padding off again; entry by entry that is the same map (Proof/ResultValue.lean),
  so the padding value is never read. At the extended reals the kernel's `sqrt` and `abs` are the host's, so the two
  expressions are one term, and no law of arithmetic — hence no finiteness of the inputs — is used.
  The frames of the two kernel programs are the generated ones; the reference's frame is its generated run with the result
  dropped; the ideal pass rewrote nothing, so `preserves` has nothing to state.
-/
import proofs.«103664_j78280073937529_1_alg».proof.Defs
import proofs.«103664_j78280073937529_1_alg».proof.Proof.Gen.Kernel
import proofs.«103664_j78280073937529_1_alg».proof.Proof.Gen.Kernel.Frame
import proofs.«103664_j78280073937529_1_alg».proof.Proof.Gen.KernelIdeal
import proofs.«103664_j78280073937529_1_alg».proof.Proof.Gen.KernelIdeal.Frame
import proofs.«103664_j78280073937529_1_alg».proof.Proof.Gen.ReferenceIdeal
import proofs.«103664_j78280073937529_1_alg».proof.Proof.Gen.Pre_finite_inputs
import proofs.«103664_j78280073937529_1_alg».proof.Proof.Gen.ReferenceIdeal.Run
import proofs.«103664_j78280073937529_1_alg».proof.Proof.ResultRun
import proofs.«103664_j78280073937529_1_alg».proof.Proof.ResultValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- At the extended reals the kernel's program ends with its result buffer at the candidates' entries of
    `agg · var0 + sqrt |var3|` (Proof/ResultRun.lean, Proof/ResultValue.lean) and the reference, run from the same argument
    arrays, at the same gathers, products, sums and scatter-add of them with the host's `sqrt` and `abs`, which are the
    kernel's there: one term. -/
theorem algebraic : Cert.algebraic_KernelIdeal_ReferenceIdeal := by
  intro m ρ m' ρ' _ hagree
  refine ⟨fun c => Cert.KernelIdeal.Result.picked m c, ?_, ?_⟩
  · exact (θ_run Cert.KernelIdeal.defs _ _).mono
      (fun _ h c => ⟨(h c).1.trans (Cert.KernelIdeal.Result.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
